-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x4096x1 : Shape := ⟨3, ![4, 4096, 1]⟩
abbrev S2x2 : Shape := ⟨2, ![2, 2]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2x2 : S_.BroadcastsInDim S2x2 (![] : Fin 0 → Fin S2x2.rank)
  reducesTo_S2x2_S_d0_1 : S2x2.ReducesTo [0, 1] S_
  bcast_S_S4x4096x1 : S_.BroadcastsInDim S4x4096x1 (![] : Fin 0 → Fin S4x4096x1.rank)
  reducesTo_S4x4096x1_S_d0_1_2 : S4x4096x1.ReducesTo [0, 1, 2] S_

variable [Facts]

def fn_part1 {F : FTy → Type} [FloatOps F] (main_arg2 : IVec S4x4096x1 32) (main_v13 : IVec S_ 1) (main_v15 : IVec S4x4096x1 1) (main_c_5 : IVec S_ 32) : IVec S_ 1 :=
  let main_v16 : IVec S4x4096x1 32 := broadcastInDim S4x4096x1 ![] bcast_S_S4x4096x1 main_c_5
  let main_v17 : IVec S4x4096x1 1 := cmpi .slt main_arg2 main_v16
  let main_v18 : IVec S4x4096x1 1 := andi main_v15 main_v17
  let main_c_6 : IVec S_ 1 := constantI S_ 1 1#1
  let main_v19 : IVec S_ 1 := (fun x v => Host.reduce IntOp.andi x v reducesTo_S4x4096x1_S_d0_1_2 h_S_) main_v18 main_c_6
  let main_v20 : IVec S_ 1 := andi main_v13 main_v19
  main_v20

def fn {F : FTy → Type} [FloatOps F] (main_arg0 : FVec F S4x4096x2048 .f32) (main_arg1 : FVec F S4x4096x2048 .f32) (main_arg2 : IVec S4x4096x1 32) (main_arg3 : FVec F S2x2 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x4096x2048 .f32 := Host.absf main_arg1
  let main_cst_0 : FVec F S_ .f32 := constant S_ .f32 0x7F800000#32
  let main_v5 : FVec F S4x4096x2048 .f32 := broadcastInDim S4x4096x2048 ![] bcast_S_S4x4096x2048 main_cst_0
  let main_v6 : IVec S4x4096x2048 1 := cmpf .olt main_v4 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v3 main_v7
  let main_v9 : FVec F S2x2 .f32 := Host.absf main_arg3
  let main_cst_2 : FVec F S_ .f32 := constant S_ .f32 0x7F800000#32
  let main_v10 : FVec F S2x2 .f32 := broadcastInDim S2x2 ![] bcast_S_S2x2 main_cst_2
  let main_v11 : IVec S2x2 1 := cmpf .olt main_v9 main_v10
  let main_c_3 : IVec S_ 1 := constantI S_ 1 1#1
  let main_v12 : IVec S_ 1 := (fun x v => Host.reduce IntOp.andi x v reducesTo_S2x2_S_d0_1 h_S_) main_v11 main_c_3
  let main_v13 : IVec S_ 1 := andi main_v8 main_v12
  let main_c_4 : IVec S_ 32 := constantI S_ 32 0#32
  let main_v14 : IVec S4x4096x1 32 := broadcastInDim S4x4096x1 ![] bcast_S_S4x4096x1 main_c_4
  let main_v15 : IVec S4x4096x1 1 := cmpi .sge main_arg2 main_v14
  let main_c_5 : IVec S_ 32 := constantI S_ 32 2#32
  fn_part1 (F := F) main_arg2 main_v13 main_v15 main_c_5
-- ==== Kernel.lean ====
abbrev S4x4096x2048 : Shape := ⟨3, ![4, 4096, 2048]⟩
abbrev S4x4096x1 : Shape := ⟨3, ![4, 4096, 1]⟩
abbrev S2x2 : Shape := ⟨2, ![2, 2]⟩
abbrev S1x512x2048 : Shape := ⟨3, ![1, 512, 2048]⟩
abbrev S1x512x1 : Shape := ⟨3, ![1, 512, 1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x1, .i32⟩
  | .hbm, ⟨3, _⟩ => ⟨S2x2, .f32⟩
  | .hbm, ⟨4, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x1, .i32⟩
  | .local _ .vmem, ⟨5, _⟩ => ⟨S1x512x1, .i32⟩
  | .local _ .vmem, ⟨6, _⟩ => ⟨S2x2, .f32⟩
  | .local _ .vmem, ⟨7, _⟩ => ⟨S1x512x2048, .f32⟩
  | .local _ .vmem, ⟨8, _⟩ => ⟨S1x512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x1_S1x512x1_0_0_0 : ∀ a, (![0, 0, 0] : Fin 3 → Nat) a + S1x512x1.size a ≤ S1x512x1.size a
  h_S1x512x1 : 0 < S1x512x1.numel
  inb_S2x2_S1x1_0_0 : ∀ a, (![0, 0] : Fin 2 → Nat) a + S1x1.size a ≤ S2x2.size a
  h_S1x1 : 0 < S1x1.numel
  inpos_S1x1_p0_0 : ∀ a, (![0, 0] : Fin 2 → Nat) a < S1x1.size a
  inb_S2x2_S1x1_0_1 : ∀ a, (![0, 1] : Fin 2 → Nat) a + S1x1.size a ≤ S2x2.size a
  inb_S2x2_S1x1_1_0 : ∀ a, (![1, 0] : Fin 2 → Nat) a + S1x1.size a ≤ S2x2.size a
  inb_S2x2_S1x1_1_1 : ∀ a, (![1, 1] : Fin 2 → Nat) a + S1x1.size a ≤ S2x2.size a
  inb_S1x512x2048_S1x512x2048_0_0_0 : ∀ a, (![0, 0, 0] : Fin 3 → Nat) a + S1x512x2048.size a ≤ S1x512x2048.size a
  h_S1x512x2048 : 0 < S1x512x2048.numel
  broadcasts_S1x512x1_S1x512x2048 : S1x512x1.Broadcasts S1x512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S4x4096x2048.size a
  hwx0_1 : ∀ i : grid0.Coords, EltTy.bits .f32 = 32 ∨ (Rect.block (s := S4x4096x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S4x4096x1.size a
  hwx0_2 : ∀ i : grid0.Coords, EltTy.bits .i32 = 32 ∨ (Rect.block (s := S4x4096x1) S1x512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x2.size a ≤ S2x2.size a
  hwx0_3 : ∀ i : grid0.Coords, EltTy.bits .f32 = 32 ∨ (Rect.block (s := S2x2) S2x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S4x4096x2048.size a
  hwx0_4 : ∀ i : grid0.Coords, EltTy.bits .f32 = 32 ∨ (Rect.block (s := S4x4096x2048) S1x512x2048.size (cc0_transform_4 i) (hinb0_4 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S4x4096x1 : Shape := ⟨3, ![4, 4096, 1]⟩
abbrev S2x2 : Shape := ⟨2, ![2, 2]⟩
abbrev S4x4096 : Shape := ⟨2, ![4, 4096]⟩
abbrev S_ : Shape := ⟨0, ![]⟩
abbrev S4x4096x2 : Shape := ⟨3, ![4, 4096, 2]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x1, .i32⟩
  | .hbm, ⟨3, _⟩ => ⟨S2x2, .f32⟩
  | .hbm, ⟨4, _⟩ => ⟨S4x4096, .i32⟩
  | .hbm, ⟨5, _⟩ => ⟨S_, .i32⟩
  | .hbm, ⟨6, _⟩ => ⟨S4x4096, .i32⟩
  | .hbm, ⟨7, _⟩ => ⟨S4x4096, .i1⟩
  | .hbm, ⟨8, _⟩ => ⟨S_, .i32⟩
  | .hbm, ⟨9, _⟩ => ⟨S4x4096, .i32⟩
  | .hbm, ⟨10, _⟩ => ⟨S4x4096, .i32⟩
  | .hbm, ⟨11, _⟩ => ⟨S4x4096, .i32⟩
  | .hbm, ⟨12, _⟩ => ⟨S4x4096x1, .i32⟩
  | .hbm, ⟨13, _⟩ => ⟨S4x4096x2, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  shapeCasts_S4x4096x1_S4x4096 : S4x4096x1.ShapeCasts S4x4096
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  slices_S4x4096x2_S4x4096x1_0_0_0 : S4x4096x2.Slices ![0, 0, 0] S4x4096x1
  slices_S4x4096x2_S4x4096x1_0_0_1 : S4x4096x2.Slices ![0, 0, 1] S4x4096x1
  bcast_S4x4096x1_S4x4096x2048_0_1_2 : S4x4096x1.BroadcastsInDim S4x4096x2048 (![0, 1, 2] : Fin 3 → Fin S4x4096x2048.rank)
  gather_S2x2_S4x4096x1_S4x4096x2_2_0_n_n_0_2_12_wf : GatherDims.WF S2x2 S4x4096x1 S4x4096x2 [2] [0] [] [0] [] 2 ![1, 2]

variable [Facts₀]

def gather_S2x2_S4x4096x1_S4x4096x2_2_0_n_n_0_2_12 : GatherDims S2x2 S4x4096x1 S4x4096x2 where
  offsetDims := [2]
  collapsedSliceDims := [0]
  operandBatchingDims := []
  startIndicesBatchingDims := []
  startIndexMap := [0]
  indexVectorDim := 2
  sliceSizes := ![1, 2]
  wf := gather_S2x2_S4x4096x1_S4x4096x2_2_0_n_n_0_2_12_wf

class Facts : Prop extends Facts₀ where

variable [Facts]
-- ==== Proof.BlendSpec.lean ====
/-
  THE BLEND, AS ONE FUNCTION OF THE ARGUMENT ARRAYS.

  Two activations `X, Y : [4, 4096, 2048]` are mixed token by token with a pair of weights taken from a table
  `W : [2, 2]` of two rows: token `(b, s)` carries a label `r[b, s, 0]`, the label picks the row, the row's first
  entry multiplies `X` and its second entry multiplies `Y`:

      out[b, s, d] = X[b, s, d] · W[row, 0] + Y[b, s, d] · W[row, 1],   row = 0 if r[b, s, 0] = 0, else 1.

  On labels in `{0, 1}` "row 0 if the label is 0, else row 1" is the same as "the row the label names", which is what
  lets a two-way choice stand for a look-up in the table. Both programs form the same product-and-sum of the same
  four numbers at every element, so the function is stated with the float operations left abstract: no law of
  arithmetic is needed, only that the two programs pick the same weights. This file states the function and the
  facts about a label word in `{0, 1}` that the two sides need: a test "equals 0" chooses as an `if`; a nonnegative
  word is not moved by the wrap-around of negative indices; read as a signed number and clamped into `[0, 1]` it names
  row `0` exactly when it is the word `0`.
-/
import Idealize.ShloMosaic.PureOps
import Idealize.ShloMosaic.Lib.ValueIdx

noncomputable section

namespace Cert.Blend

open Idealize.ShloMosaic Idealize.ShloMosaic.ValueIdx

variable {F : FTy → Type} [FloatOps F]

/-- The activations' shape, the labels' and the table's. -/
abbrev SAct : Shape := ⟨3, ![4, 4096, 2048]⟩
abbrev SLab : Shape := ⟨3, ![4, 4096, 1]⟩
abbrev STab : Shape := ⟨2, ![2, 2]⟩

/-- The label position `(b, s, 0)` of the element `(b, s, d)`. -/
abbrev labAt (i : SAct.Idx) : SLab.Idx :=
  fun a => match a with | ⟨0, _⟩ => i 0 | ⟨1, _⟩ => i 1 | ⟨2, _⟩ => ⟨0, Nat.one_pos⟩

/-- The table's entry in row `0` when the label word is `0`, in row `1` otherwise, at column `k`. -/
def weight (W : STab.Idx → Elt F .f32) (w : BitVec 32) (k : Fin 2) : Elt F .f32 :=
  if w = 0#32 then W (ix2 (0 : Fin 2) k) else W (ix2 (1 : Fin 2) k)

/-- THE BLEND: each element of `X` times its token's first weight plus the element of `Y` times the second. -/
def blend (X Y : SAct.Idx → Elt F .f32) (r : SLab.Idx → BitVec 32) (W : STab.Idx → Elt F .f32) :
    SAct.Idx → Elt F .f32 :=
  fun i => FloatOps.addf (FloatOps.mulf (X i) (weight W (r (labAt i)) 0)) (FloatOps.mulf (Y i) (weight W (r (labAt i)) 1))

/-- A choice on the test "the word equals 0" is an `if` on that equation. -/
theorem select_eq_zero {α : Type} (w : BitVec 32) (a b : α) :
    Scalar.select (IntOp.cmpi .eq w 0#32) a b = if w = 0#32 then a else b := by
  by_cases h : w = 0#32
  · subst h; rw [if_pos rfl]; rfl
  · rw [if_neg h]
    have hc : IntOp.cmpi .eq w 0#32 = 0#1 := by
      simp only [IntOp.cmpi, beq_eq_false_iff_ne.mpr h]; rfl
    rw [hc]; rfl

/-- A label word in `{0, 1}` is nonnegative, so the wrap-around of negative indices (`w + 2` where `w < 0`) leaves it. -/
theorem wrap_of_label {w : BitVec 32} (hw : w = 0#32 ∨ w = 1#32) :
    Scalar.select (IntOp.cmpi .slt w 0#32) (IntOp.addi w 2#32) w = w := by
  rcases hw with rfl | rfl <;> rfl

/-- The table at the row a label word in `{0, 1}` names — the word read signed and clamped into `[0, 1]` — is the
    two-way choice on "the word is 0". -/
theorem table_at_label (W : STab.Idx → Elt F .f32) {w : BitVec 32} (hw : w = 0#32 ∨ w = 1#32) (k : Fin 2)
    (h : min w.toInt.toNat (2 - 1) < 2) :
    W (ix2 (⟨min w.toInt.toNat (2 - 1), h⟩ : Fin 2) k) = weight W w k := by
  unfold weight
  rcases hw with rfl | rfl
  · rw [if_pos rfl]
    exact congrArg (fun p : Fin 2 => W (ix2 p k)) (Fin.ext (show min (0#32 : BitVec 32).toInt.toNat (2 - 1) = 0 by decide))
  · rw [if_neg (by decide)]
    exact congrArg (fun p : Fin 2 => W (ix2 p k)) (Fin.ext (show min (1#32 : BitVec 32).toInt.toNat (2 - 1) = 1 by decide))

end Cert.Blend

end
-- ==== Proof.LabelDomain.lean ====
/-
  THE LABELS' DOMAIN, READ OUT OF THE PRECONDITION.

  The precondition is a conjunction of four `all`s: three say that the float inputs are finite, the fourth that every
  label `r[b, s, 0]` satisfies `0 ≤ r` and `r < 2` as a signed 32-bit number. The value claim uses only the fourth: it
  says each label word is `0` or `1`. An `all` over an array is an and-reduction from `true`, which is `true` only if
  every element is; the element here is the `and` of two signed comparisons against the constants `0` and `2`.
-/
import proofs.«409338_j42013370089772_1_alg».proof.Pre_finite_inputs
import Idealize.ShloMosaic.Lib.ReduceAll

noncomputable section

namespace Cert.Blend

open Idealize.ShloMosaic Cert.Pre_finite_inputs

variable {F : FTy → Type} [FloatOps F] [Cert.Pre_finite_inputs.Facts]

/-- A rank-0 shape has one index. -/
instance : Subsingleton S_.Idx := ⟨fun a b => funext fun d => d.elim0⟩

/-- Under the precondition every label word is `0` or `1`. -/
theorem label_mem (X Y : FVec F S4x4096x2048 .f32) (r : IVec S4x4096x1 32) (W : FVec F S2x2 .f32)
    (h : fn (F := F) X Y r W = fun _ => 1#1) (j : S4x4096x1.Idx) : r j = 0#32 ∨ r j = 1#32 := by
  have h0 := congrFun h (fun d => d.elim0)
  dsimp only [fn, fn_part1] at h0
  obtain ⟨-, hall⟩ := IntOp.andi_eq_one.1 h0
  have hj := Host.reduce_andi_all _ _ _ _ _ hall j
  obtain ⟨hge, hlt⟩ := IntOp.andi_eq_one.1 hj
  have hge' : (0#32 : BitVec 32).toInt ≤ (r j).toInt := IntOp.cmpi_sge.1 hge
  have hlt' : (r j).toInt < (2#32 : BitVec 32).toInt := IntOp.cmpi_slt.1 hlt
  have e0 : (0#32 : BitVec 32).toInt = 0 := by decide
  have e2 : (2#32 : BitVec 32).toInt = 2 := by decide
  have e1 : (1#32 : BitVec 32).toInt = 1 := by decide
  rw [e0] at hge'; rw [e2] at hlt'
  rcases (by omega : (r j).toInt = 0 ∨ (r j).toInt = 1) with hz | ho
  · exact Or.inl (BitVec.eq_of_toInt_eq (hz.trans e0.symm))
  · exact Or.inr (BitVec.eq_of_toInt_eq (ho.trans e1.symm))

end Cert.Blend

end
-- ==== Proof.LibRowTake.lean ====
/-
  ROWS OF A TABLE TAKEN AT A RANK-2 ARRAY OF INDICES, READ AT AN ELEMENT.

  `x[idx]` of a table `x : [N, D]` at an integer array `idx : [R, C]` lowers to a gather over the indices laid out as
  `[R, C, 1]` (one index vector of length one per token): the table's axis 0 is collapsed (slice size 1) and is the one
  axis the start index names, axis 1 is taken whole (slice size `D`) and becomes the result's one offset axis, axis 2;
  the result is `[R, C, D]`. This file reads that gather at one element, generically in the four sizes, the index width
  and the element type: element `(r, c, k)` is the table at row `idx[r, c, 0]`, read as a signed integer and clamped into
  `[0, N − 1]` (a gather clamps every start index so that its slice fits), and column `k`.
-/
import Idealize.ShloMosaic.PureOps
import Idealize.ShloMosaic.Lib.ValueIdx

noncomputable section

namespace Cert.LibRowTake

open Idealize.ShloMosaic Idealize.ShloMosaic.ValueIdx

/-- The dimension numbers of `x[idx]` for `x : [N, D]`, start indices `[R, C, 1]`, result `[R, C, D]`. The conditions
    `wf` are decided on a program's literal sizes. -/
abbrev rowTakeDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The start-indices index `[r, c, 0]` of result index `(r, c, k)`. -/
abbrev tokIdx {R C D : Nat} (y : (⟨3, ![R, C, D]⟩ : Shape).Idx) : (⟨3, ![R, C, 1]⟩ : Shape).Idx :=
  fun a => match a with | ⟨0, _⟩ => y 0 | ⟨1, _⟩ => y 1 | ⟨2, _⟩ => ⟨0, Nat.one_pos⟩

/-- THE ROW TAKE READ AT `(r, c, k)`: the table at row `idx[r, c, 0]`, read signed and clamped into `[0, N − 1]`, and
    column `k`. On the table's axis 0 the operand index is the clamped start (no batching axis; the axis is collapsed, so
    it carries no offset); on axis 1 the start is `0` (the start index does not name it) and the offset is the result's
    coordinate on its offset axis. -/
theorem rowTake_apply {α : Type} {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowTakeDims N D R C wf) x idx y
      = x (ix2 ⟨min (idx (tokIdx y)).toInt.toNat (N - 1), by omega⟩ (y 2)) := by
  unfold Host.gather
  congr 1
  funext a
  refine Fin.ext ?_
  match a with
  | ⟨0, _⟩ =>
    show (rowTakeDims N D R C wf).start y idx 0 + (rowTakeDims N D R C wf).batchCoord y 0
      + (rowTakeDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D R C wf).startIndexMap from List.mem_singleton.mpr rfl)]
    have hsi : (rowTakeDims N D R C wf).siIdx y ⟨List.idxOf (0 : Fin 2) (rowTakeDims N D R C wf).startIndexMap,
        List.idxOf_lt_length_iff.2 (List.mem_singleton.mpr rfl)⟩ = tokIdx y := by
      funext b; refine Fin.ext ?_
      match b with
      | ⟨0, _⟩ => rfl
      | ⟨1, _⟩ => rfl
      | ⟨2, _⟩ => rfl
    rw [hsi]
    rfl
  | ⟨1, _⟩ =>
    show (rowTakeDims N D R C wf).start y idx 1 + (rowTakeDims N D R C wf).batchCoord y 1
      + (rowTakeDims N D R C wf).offCoord y 1 = _
    rw [GatherDims.batchCoord_eq_zero _ _ _ List.not_mem_nil]
    unfold GatherDims.start
    rw [dif_neg (show (1 : Fin 2) ∉ (rowTakeDims N D R C wf).startIndexMap from
      (show ¬ ((1 : Fin 2) ∈ ([0] : List (Fin 2))) by decide))]
    unfold GatherDims.offCoord
    rw [dif_pos (show (1 : Fin 2) ∈ (rowTakeDims N D R C wf).sKept from (GatherDims.mem_sKept _ _).mpr
      ⟨(show ¬ ((1 : Fin 2) ∈ ([0] : List (Fin 2))) by decide), List.not_mem_nil⟩)]
    simp only [Nat.add_zero, Nat.zero_add]
    rfl

/-- The same for any record equal to `rowTakeDims N D R C wf`: a program prints its dimension numbers as a record of its
    own with literal sizes, which is this one by `rfl`. -/
theorem rowTake_apply_of {α : Type} {N D R C w : Nat} (hN : 0 < N)
    {wf : GatherDims.WF ⟨2, ![N, D]⟩ ⟨3, ![R, C, 1]⟩ ⟨3, ![R, C, D]⟩ [2] [0] [] [0] [] 2 ![1, D]}
    (d : GatherDims ⟨2, ![N, D]⟩ ⟨3, ![R, C, 1]⟩ ⟨3, ![R, C, D]⟩) (hd : d = rowTakeDims N D R C wf)
    (x : (⟨2, ![N, D]⟩ : Shape).Idx → α) (idx : IVec ⟨3, ![R, C, 1]⟩ w) (y : (⟨3, ![R, C, D]⟩ : Shape).Idx) :
    Host.gather d x idx y
      = x (ix2 ⟨min (idx (tokIdx y)).toInt.toNat (N - 1), by omega⟩ (y 2)) := by
  subst hd; exact rowTake_apply hN wf x idx y

end Cert.LibRowTake

end
-- ==== Proof.RefBlend.lean ====
/-
  THE REFERENCE IS THE BLEND, ON LABELS IN `{0, 1}`.

  The reference looks the weights up: it takes the labels `r[b, s, 0]`, moves a negative one up by the table's two
  rows (the wrap-around of negative indices), takes the table's row at that index — a gather, which reads the index as a
  signed number and clamps it into `[0, 1]` — and uses the row's two entries as the weights of `X` and `Y`. On a label
  in `{0, 1}` the wrap-around does nothing and the clamp does nothing, so the row taken is row `0` when the label is
  `0` and row `1` when it is `1`: the two-way choice of the blend.
-/
import proofs.«409338_j42013370089772_1_alg».proof.Proof.Gen.ReferenceIdeal.Read
import proofs.«409338_j42013370089772_1_alg».proof.Proof.BlendSpec
import proofs.«409338_j42013370089772_1_alg».proof.Proof.LibRowTake

noncomputable section

namespace Cert.Blend.Ref

open Idealize.ShloMosaic Idealize.ShloMosaic.ValueIdx Cert.ReferenceIdeal Cert.ReferenceIdeal.Gen Cert.ReferenceIdeal.Read
open Cert.Blend Cert.LibRowTake

variable {F : FTy → Type} [FloatOps F]

/-- The index the gather is given at a token is the token's label: the label array is re-laid as `[4, 4096]` and back,
    and a label in `{0, 1}` is not moved by the wrap-around. -/
theorem start_eq (r : (⟨S4x4096x1, .i32⟩ : BufTy).Contents (Elt F)) (hr : ∀ j, r j = 0#32 ∨ r j = 1#32)
    (j : S4x4096x1.Idx) : val_main_v6 (F := F) r j = r j := by
  rw [val_main_v6_apply, val_main_v5_apply, val_main_v2_apply, val_main_v4_apply, val_main_v1_apply, val_main_v3_apply,
    val_main_c_apply, val_main_c_0_apply, val_main_v0_apply]
  have e : idx_main_v0 (idx_main_v6 j) = j := by
    funext a; refine Fin.ext ?_
    have h0 : (j 0).val < 4 := (j 0).isLt
    have h1 : (j 1).val < 4096 := (j 1).isLt
    have h2 : (j 2).val < 1 := (j 2).isLt
    match a with
    | ⟨0, _⟩ => show ((j 0).val * 4096 + (j 1).val) / 4096 = (j 0).val; omega
    | ⟨1, _⟩ => show ((j 0).val * 4096 + (j 1).val) / 1 % 4096 = (j 1).val; omega
    | ⟨2, _⟩ => show 0 = (j 2).val; omega
  rw [e]
  exact wrap_of_label (hr j)

/-- The row the gather takes at `(b, s, k)` is the blend's weight `k` of the label of token `(b, s)`. -/
theorem row_eq (r : (⟨S4x4096x1, .i32⟩ : BufTy).Contents (Elt F)) (W : (⟨S2x2, .f32⟩ : BufTy).Contents (Elt F))
    (hr : ∀ j, r j = 0#32 ∨ r j = 1#32) (y : S4x4096x2.Idx) (j : S4x4096x1.Idx) (k : Fin 2)
    (hj : tokIdx y = j) (hk : (y 2).val = k.val) :
    val_main_v7 (F := F) r W y = weight W (r j) k := by
  unfold val_main_v7
  rw [rowTake_apply_of (N := 2) (D := 2) (R := 4) (C := 4096) (by decide)
    gather_S2x2_S4x4096x1_S4x4096x2_2_0_n_n_0_2_12 rfl W (val_main_v6 (F := F) r) y]
  have e := start_eq r hr (tokIdx y)
  refine (table_at_label W (w := val_main_v6 (F := F) r (tokIdx y)) (by rw [e]; exact hr _) (y 2) _).trans ?_
  rw [e, hj]
  exact congrArg (weight W (r j)) (Fin.ext hk)

/-- THE REFERENCE'S RESULT, as the last stage of its run, is the blend of its arguments. -/
theorem result_eq (X Y : (⟨S4x4096x2048, .f32⟩ : BufTy).Contents (Elt F)) (r : (⟨S4x4096x1, .i32⟩ : BufTy).Contents (Elt F))
    (W : (⟨S2x2, .f32⟩ : BufTy).Contents (Elt F)) (hr : ∀ j, r j = 0#32 ∨ r j = 1#32) :
    val_main_v14 (F := F) X Y r W = blend X Y r W := by
  funext i
  have t8 : tokIdx (idx_main_v8 (idx_main_v10 i)) = labAt i := by
    funext a; match a with | ⟨0, _⟩ => rfl | ⟨1, _⟩ => rfl | ⟨2, _⟩ => rfl
  have t9 : tokIdx (idx_main_v9 (idx_main_v12 i)) = labAt i := by
    funext a; match a with | ⟨0, _⟩ => rfl | ⟨1, _⟩ => rfl | ⟨2, _⟩ => rfl
  rw [val_main_v14_apply, val_main_v11_apply, val_main_v13_apply, val_main_v10_apply, val_main_v12_apply,
    val_main_v8_apply, val_main_v9_apply, row_eq r W hr _ (labAt i) 0 t8 rfl, row_eq r W hr _ (labAt i) 1 t9 rfl]
  rfl

end Cert.Blend.Ref

end
-- ==== Proof.KernelBlend.lean ====
/-
  THE KERNEL'S RESULT ARRAY IS THE BLEND.

  The kernel walks a grid of `4 × 8` points. At point `(b, s)` it is given block `(b, s, 0)` of `X`, of `Y` and of the
  output — 512 consecutive tokens of batch entry `b`, all 2048 channels —, the same tokens' labels (a `[1, 512, 1]`
  block) and the whole `2 × 2` table. It reads the table's four entries one by one, chooses per token between rows `0`
  and `1` by the test "the label is 0", spreads the two chosen weights over the channels, and stores
  `x · a + y · b` over the whole output block. So element `(0, p, q)` of the block it writes is the blend at array element
  `(b, 512 · s + p, q)`, whose label sits at `(b, 512 · s + p, 0)`: position `(0, p, 0)` of the label block. The 32 blocks
  tile the output array, so the array ends equal to the blend everywhere.
-/
import proofs.«409338_j42013370089772_1_alg».proof.Proof.Gen.KernelIdeal.Value
import proofs.«409338_j42013370089772_1_alg».proof.Proof.BlendSpec

set_option maxRecDepth 16384

noncomputable section

namespace Cert.Blend.Kern

open Cert.KernelIdeal Cert.KernelIdeal.Gen Idealize.ShloMosaic Idealize.ShloMosaic.TcCoe Idealize.SL.Sem
open Idealize.ShloMosaic.ValueIdx
open Idealize.ShloMosaic.Pipeline (Dat)
open Cert.Blend

variable {F : FTy → Type} [FloatOps F]

/-- The three zero offsets of a whole-block access, as a constant function. -/
theorem zero3 : (![0, 0, 0] : Fin 3 → Nat) = fun _ => 0 := funext fun a => by fin_cases a <;> rfl

/-- The label position `(0, p, 0)` of the block element `(0, p, q)`. -/
abbrev labIn (y : S1x512x2048.Idx) : S1x512x1.Idx :=
  fun a => match a with | ⟨0, _⟩ => y 0 | ⟨1, _⟩ => y 1 | ⟨2, _⟩ => ⟨0, Nat.one_pos⟩

/-- The spread of a per-token column over the channels reads the column at the element's token. -/
theorem spread_apply {α : Type} (v : S1x512x1.Idx → α) (y : S1x512x2048.Idx) :
    broadcastTo S1x512x2048 v broadcasts_S1x512x1_S1x512x2048 y = v (labIn y) :=
  broadcastTo_apply v broadcasts_S1x512x1_S1x512x2048 y (labIn y) (fun a => match a with
    | ⟨0, _⟩ => by
        have h0 : (y 0).val < 1 := (y 0).isLt
        show (y 0).val = if (1 : Nat) = 1 then 0 else (y 0).val
        rw [if_pos rfl]; omega
    | ⟨1, _⟩ => by show (y 1).val = if (512 : Nat) = 1 then 0 else (y 1).val; rw [if_neg (by decide)]
    | ⟨2, _⟩ => by show 0 = if (1 : Nat) = 1 then 0 else (y 2).val; rw [if_pos rfl])

/-- The four one-element loads of the table, extracted, are its four entries. -/
theorem entry00 (x3 : Vec F S2x2 .f32) : extractAt ![0, 0] (View.ld x3 r0_1) inpos_S1x1_p0_0 = x3 (ix2 (0 : Fin 2) (0 : Fin 2)) :=
  congrArg x3 (funext fun a => Fin.ext (by match a with | ⟨0, _⟩ => rfl | ⟨1, _⟩ => rfl))
theorem entry01 (x3 : Vec F S2x2 .f32) : extractAt ![0, 0] (View.ld x3 r0_2) inpos_S1x1_p0_0 = x3 (ix2 (0 : Fin 2) (1 : Fin 2)) :=
  congrArg x3 (funext fun a => Fin.ext (by match a with | ⟨0, _⟩ => rfl | ⟨1, _⟩ => rfl))
theorem entry10 (x3 : Vec F S2x2 .f32) : extractAt ![0, 0] (View.ld x3 r0_3) inpos_S1x1_p0_0 = x3 (ix2 (1 : Fin 2) (0 : Fin 2)) :=
  congrArg x3 (funext fun a => Fin.ext (by match a with | ⟨0, _⟩ => rfl | ⟨1, _⟩ => rfl))
theorem entry11 (x3 : Vec F S2x2 .f32) : extractAt ![0, 0] (View.ld x3 r0_4) inpos_S1x1_p0_0 = x3 (ix2 (1 : Fin 2) (1 : Fin 2)) :=
  congrArg x3 (funext fun a => Fin.ext (by match a with | ⟨0, _⟩ => rfl | ⟨1, _⟩ => rfl))

/-- WHAT THE BODY STORES, at one element of the block: the element of the `X` block times the weight `0` its token's
    label chooses, plus the element of the `Y` block times the weight `1`. -/
theorem body_apply (x0 x1 : Vec F S1x512x2048 .f32) (x2 : Vec F S1x512x1 .i32) (x3 : Vec F S2x2 .f32)
    (y : S1x512x2048.Idx) :
    out0_4 x0 x1 x2 x3 y
      = FloatOps.addf (FloatOps.mulf (x0 y) (weight x3 (x2 (labIn y)) 0)) (FloatOps.mulf (x1 y) (weight x3 (x2 (labIn y)) 1)) := by
  unfold out0_4
  rw [View.canon_unit_zero zero3]
  simp only [View.ld_unit_zero (S := S1x512x2048) zero3, View.ld_unit_zero (S := S1x512x1) zero3]
  unfold k0_pay1
  show FloatOps.addf (FloatOps.mulf (x0 y) (broadcastTo S1x512x2048 _ broadcasts_S1x512x1_S1x512x2048 y))
    (FloatOps.mulf (x1 y) (broadcastTo S1x512x2048 _ broadcasts_S1x512x1_S1x512x2048 y)) = _
  rw [spread_apply, spread_apply]
  show FloatOps.addf (FloatOps.mulf (x0 y) (Scalar.select (IntOp.cmpi .eq (x2 (labIn y)) 0#32) _ _))
    (FloatOps.mulf (x1 y) (Scalar.select (IntOp.cmpi .eq (x2 (labIn y)) 0#32) _ _)) = _
  rw [select_eq_zero, select_eq_zero]
  unfold weight
  rw [← entry00 x3, ← entry01 x3, ← entry10 x3, ← entry11 x3]
  rfl

/-- The same against arrays: if the block elements are the arrays' at element `i` and the block's label is the label of
    `i`'s token, the body stores the blend at `i`. -/
theorem body_blend (x0 x1 : Vec F S1x512x2048 .f32) (x2 : Vec F S1x512x1 .i32) (x3 : Vec F S2x2 .f32)
    (X Y : SAct.Idx → Elt F .f32) (r : SLab.Idx → BitVec 32) (y : S1x512x2048.Idx) (i : SAct.Idx)
    (h0 : x0 y = X i) (h1 : x1 y = Y i) (h2 : x2 (labIn y) = r (labAt i)) :
    out0_4 x0 x1 x2 x3 y = blend X Y r x3 i := by
  rw [body_apply, h0, h1, h2]
  rfl

variable (m : (ℓ : Loc nD τ sig) → Buf (Elt F) ℓ) (ρ : Dev nD → PrngReg)

/-- The index maps, decided over the 32 points: the `X`, `Y` and label blocks move with the output block on the batch
    and token axes, every block index is `0` on the last axis, and the table's block is always block `(0, 0)`. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = win0_4.index t (1 : Fin 3)
    ∧ win0_1.index t (2 : Fin 3) = 0
    ∧ win0_2.index t (0 : Fin 3) = win0_4.index t (0 : Fin 3) ∧ win0_2.index t (1 : Fin 3) = win0_4.index t (1 : Fin 3)
    ∧ win0_2.index t (2 : Fin 3) = 0
    ∧ win0_3.index t (0 : Fin 2) = 0 ∧ win0_3.index t (1 : Fin 2) = 0
    ∧ win0_4.index t (2 : Fin 3) = 0 ∧ win0_4.index t (0 : Fin 3) ≤ 3 ∧ win0_4.index t (1 : Fin 3) ≤ 7 :=
  (by decide +kernel : ∀ t : Fin grid0.N, _)

/-- Every output block `(b, s, 0)` is some point's. -/
theorem idx_onto : ∀ (q0 : Fin 4) (q1 : Fin 8), ∃ t : Fin cfg0.N, win0_4.index t = ![q0.val, q1.val, 0] :=
  (by decide +kernel : ∀ (q0 : Fin 4) (q1 : Fin 8), ∃ t : Fin grid0.N, win0_4.index t = ![q0.val, q1.val, 0])

/-- WHAT POINT `t` WRITES BACK is block `t` of the blend of the argument arrays. -/
theorem flushed_eq (c : Dev nD) (t : Fin cfg0.N) :
    (dats m 0 c).flushed 4 t
      = ((cfg0.win 4).blk t).view.read (Elt F) (blend (V m c main_arg0) (V m c main_arg1) (V m c main_arg2) (V m c main_arg3)) := by
  rw [Cert.KernelIdeal.Value.flushed4]
  obtain ⟨a0, a1, a2, b0, b1, b2, l0, l1, l2, w0, w1, o2, -, -⟩ := idx_facts t
  funext j
  show out0_4 (iblk m c 0 t) (iblk m c 1 t) (iblk m c 2 t) (iblk m c 3 t) j
    = blend (V m c main_arg0) (V m c main_arg1) (V m c main_arg2) (V m c main_arg3) (((cfg0.win 4).blk t).view.emb j)
  have hj0 : (j 0).val < 1 := (j 0).isLt
  have hj1 : (j 1).val < 512 := (j 1).isLt
  have hj2 : (j 2).val < 2048 := (j 2).isLt
  have hW : (iblk m c 3 t : S2x2.Idx → Elt F .f32) = V m c main_arg3 := by
    funext z
    show V m c main_arg3 (((cfg0.win 3).blk t).view.emb z) = V m c main_arg3 z
    refine congrArg (V m c main_arg3) (funext fun a => Fin.ext ?_)
    match a with
    | ⟨0, _⟩ => show win0_3.index t (0 : Fin 2) * 2 + 1 * (z 0).val = (z 0).val; omega
    | ⟨1, _⟩ => show win0_3.index t (1 : Fin 2) * 2 + 1 * (z 1).val = (z 1).val; omega
  refine (body_blend (iblk m c 0 t) (iblk m c 1 t) (iblk m c 2 t) (iblk m c 3 t)
    (V m c main_arg0) (V m c main_arg1) (V m c main_arg2) j (((cfg0.win 4).blk t).view.emb j) ?_ ?_ ?_).trans ?_
  · show V m c main_arg0 (((cfg0.win 0).blk t).view.emb j) = V m c main_arg0 (((cfg0.win 4).blk t).view.emb j)
    refine congrArg (V m c main_arg0) (funext fun a => Fin.ext ?_)
    match a with
    | ⟨0, _⟩ => show win0_0.index t (0 : Fin 3) * 1 + 1 * (j 0).val = win0_4.index t (0 : Fin 3) * 1 + 1 * (j 0).val; omega
    | ⟨1, _⟩ => show win0_0.index t (1 : Fin 3) * 512 + 1 * (j 1).val = win0_4.index t (1 : Fin 3) * 512 + 1 * (j 1).val; omega
    | ⟨2, _⟩ => show win0_0.index t (2 : Fin 3) * 2048 + 1 * (j 2).val = win0_4.index t (2 : Fin 3) * 2048 + 1 * (j 2).val; omega
  · show V m c main_arg1 (((cfg0.win 1).blk t).view.emb j) = V m c main_arg1 (((cfg0.win 4).blk t).view.emb j)
    refine congrArg (V m c main_arg1) (funext fun a => Fin.ext ?_)
    match a with
    | ⟨0, _⟩ => show win0_1.index t (0 : Fin 3) * 1 + 1 * (j 0).val = win0_4.index t (0 : Fin 3) * 1 + 1 * (j 0).val; omega
    | ⟨1, _⟩ => show win0_1.index t (1 : Fin 3) * 512 + 1 * (j 1).val = win0_4.index t (1 : Fin 3) * 512 + 1 * (j 1).val; omega
    | ⟨2, _⟩ => show win0_1.index t (2 : Fin 3) * 2048 + 1 * (j 2).val = win0_4.index t (2 : Fin 3) * 2048 + 1 * (j 2).val; omega
  · show V m c main_arg2 (((cfg0.win 2).blk t).view.emb (labIn j)) = V m c main_arg2 (labAt (((cfg0.win 4).blk t).view.emb j))
    refine congrArg (V m c main_arg2) (funext fun a => Fin.ext ?_)
    match a with
    | ⟨0, _⟩ => show win0_2.index t (0 : Fin 3) * 1 + 1 * (j 0).val = win0_4.index t (0 : Fin 3) * 1 + 1 * (j 0).val; omega
    | ⟨1, _⟩ => show win0_2.index t (1 : Fin 3) * 512 + 1 * (j 1).val = win0_4.index t (1 : Fin 3) * 512 + 1 * (j 1).val; omega
    | ⟨2, _⟩ => show win0_2.index t (2 : Fin 3) * 1 + 1 * 0 = 0; omega
  · rw [hW]

/-- An element of the array is in point `t`'s block iff each coordinate is in the block's range on its axis. -/
theorem mem_blk (t : Fin cfg0.N) (i : S4x4096x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v0).slice (win0_4.rect t)).set ↔ _
  rw [View.set_slice_whole, Rect.mem_set_unit]
  exact Iff.rfl

/-- The 32 blocks cover the output array: element `(b, n, q)` lies in the block of the point with block index
    `(b, n / 512, 0)`. -/
theorem covered (i : S4x4096x2048.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 2048 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- THE OUTPUT ARRAY after the run is the blend of the argument arrays as launched. -/
theorem final (c : Dev nD) :
    (dats m 0 c).arrAt 4 cfg0.N
      = blend (m ((c : Thread nD τ).loc main_arg0)) (m ((c : Thread nD τ).loc main_arg1)) (m ((c : Thread nD τ).loc main_arg2))
          (m ((c : Thread nD τ).loc main_arg3)) :=
  (dats m 0 c).arrAt_eq_of_cover 4 _ (fun t _ => flushed_eq m c t) covered

/-- THE KERNEL'S RUN, read: every execution terminates with the result array at the blend of the arguments and the
    arguments unchanged. -/
theorem run : θ_run defs (onTc (τ := τ) (main (F := F))) ⟨m, fun _ => 0, ρ⟩ fun r => ∀ c : Dev nD,
      r.2.mem ((c : Thread nD τ).loc main_v0)
        = blend (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Blend.Kern

end
-- ==== Proof.lean ====
/-
  A token-wise blend of two activations by a pair of weights looked up in a two-row table, computed by a kernel that
  replaces the look-up by a two-way choice, against the look-up itself.

  Both programs compute, at every element `(b, s, d)`,  `X[b, s, d] · a + Y[b, s, d] · b`  where `(a, b)` is a row of the
  `2 × 2` table `W` picked by the token's label `r[b, s, 0]`. The reference takes row `r` (a gather: a negative index is
  first moved up by 2, then the index is clamped into `[0, 1]`); the kernel takes row `0` when `r = 0` and row `1`
  otherwise. The two rules agree exactly where the label is a row number of the table, `r ∈ {0, 1}` — at `r = −2` the
  reference takes row `0` and the kernel row `1` — and that domain is part of the precondition. On it the two results are
  the same product-and-sum of the same four numbers, so no law of arithmetic on the extended reals is used and the
  finiteness of the float inputs is never opened.

  The modules: `BlendSpec` states the blend as one function of the four argument arrays; `LabelDomain` reads
  `r ∈ {0, 1}` out of the precondition; `RefBlend` shows that the reference's result is the blend (the gather read at an
  element by `LibRowTake`); `KernelBlend` shows that each grid point writes its block of the blend and that the blocks
  tile the output. Below, the three frames, the (empty) list of idealization steps, and the equality of the results.
-/
import proofs.«409338_j42013370089772_1_alg».proof.Defs
import proofs.«409338_j42013370089772_1_alg».proof.Proof.Gen.Kernel
import proofs.«409338_j42013370089772_1_alg».proof.Proof.Gen.Kernel.Skeleton
import proofs.«409338_j42013370089772_1_alg».proof.Proof.Gen.Kernel.Launch
import proofs.«409338_j42013370089772_1_alg».proof.Proof.Gen.Kernel.Points
import proofs.«409338_j42013370089772_1_alg».proof.Proof.Gen.Kernel.Frame
import proofs.«409338_j42013370089772_1_alg».proof.Proof.Gen.KernelIdeal
import proofs.«409338_j42013370089772_1_alg».proof.Proof.Gen.KernelIdeal.Skeleton
import proofs.«409338_j42013370089772_1_alg».proof.Proof.Gen.KernelIdeal.Launch
import proofs.«409338_j42013370089772_1_alg».proof.Proof.Gen.KernelIdeal.Points
import proofs.«409338_j42013370089772_1_alg».proof.Proof.Gen.KernelIdeal.Frame
import proofs.«409338_j42013370089772_1_alg».proof.Proof.Gen.ReferenceIdeal
import proofs.«409338_j42013370089772_1_alg».proof.Proof.Gen.Pre_finite_inputs
import proofs.«409338_j42013370089772_1_alg».proof.Proof.Gen.KernelIdeal.Value
import proofs.«409338_j42013370089772_1_alg».proof.Proof.Gen.ReferenceIdeal.Run
import proofs.«409338_j42013370089772_1_alg».proof.Proof.Gen.ReferenceIdeal.Read
import proofs.«409338_j42013370089772_1_alg».proof.Proof.BlendSpec
import proofs.«409338_j42013370089772_1_alg».proof.Proof.LabelDomain
import proofs.«409338_j42013370089772_1_alg».proof.Proof.RefBlend
import proofs.«409338_j42013370089772_1_alg».proof.Proof.KernelBlend
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote nothing. -/
theorem preserves : Cert.preserves_Kernel_KernelIdeal := trivial

/-- From memories agreeing on the arguments, with every label in `{0, 1}`, both programs end with the blend of the
    arguments in their result arrays: the kernel block by block, the reference by its look-up. -/
theorem algebraic : Cert.algebraic_KernelIdeal_ReferenceIdeal := by
  intro m ρ m' ρ' hpre hagree
  refine ⟨_, Cert.Blend.Kern.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2.1, (hagree c).2.2.2]
  exact Cert.Blend.Ref.result_eq _ _ _ _ (fun j => Cert.Blend.label_mem _ _ _ _ (hpre c) j)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
